-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x64 .f32) (main_arg1 : IVec S2x1200000 32) (main_arg2 : FVec F S64x64 .f32) (main_arg3 : FVec F S64 .f32) (main_arg4 : FVec F S64x16 .f32) (main_arg5 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S10000x64 : Shape := ⟨2, ![10000, 64]⟩
abbrev S1x16 : Shape := ⟨2, ![1, 16]⟩
abbrev S100000x16 : Shape := ⟨2, ![100000, 16]⟩
abbrev S10000x16 : Shape := ⟨2, ![10000, 16]⟩
abbrev S10000 : Shape := ⟨1, ![10000]⟩
abbrev S10000x1 : Shape := ⟨2, ![10000, 1]⟩

abbrev nBuf : Space → Nat
  | .hbm => 105
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1200000, .i32⟩
  | .hbm, ⟨8, _⟩ => ⟨S1200000, .i32⟩
  | .hbm, ⟨9, _⟩ => ⟨S1300000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S_, .f32⟩
  | .hbm, ⟨14, _⟩ => ⟨S1300000, .f32⟩
  | .hbm, ⟨15, _⟩ => ⟨S_, .f32⟩
  | .hbm, ⟨16, _⟩ => ⟨S100000, .f32⟩
  | .hbm, ⟨17, _⟩ => ⟨S1300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1300000, .i32⟩
  | .hbm, ⟨24, _⟩ => ⟨S1300000, .i1⟩
  | .hbm, ⟨25, _⟩ => ⟨S_, .i32⟩
  | .hbm, ⟨26, _⟩ => ⟨S1300000, .i32⟩
  | .hbm, ⟨27, _⟩ => ⟨S1300000, .i32⟩
  | .hbm, ⟨28, _⟩ => ⟨S1300000, .i32⟩
  | .hbm, ⟨29, _⟩ => ⟨S1300000x1, .i32⟩
  | .hbm, ⟨30, _⟩ => ⟨S1300000, .f32⟩
  | .hbm, ⟨31, _⟩ => ⟨S_, .i32⟩
  | .hbm, ⟨32, _⟩ => ⟨S1300000, .i32⟩
  | .hbm, ⟨33, _⟩ => ⟨S1300000, .i1⟩
  | .hbm, ⟨34, _⟩ => ⟨S_, .i32⟩
  | .hbm, ⟨35, _⟩ => ⟨S1300000, .i32⟩
  | .hbm, ⟨36, _⟩ => ⟨S1300000, .i32⟩
  | .hbm, ⟨37, _⟩ => ⟨S1300000, .i32⟩
  | .hbm, ⟨38, _⟩ => ⟨S1300000x1, .i32⟩
  | .hbm, ⟨39, _⟩ => ⟨S1300000, .f32⟩
  | .hbm, ⟨40, _⟩ => ⟨S1300000, .f32⟩
  | .hbm, ⟨41, _⟩ => ⟨S1300000x1, .f32⟩
  | .hbm, ⟨42, _⟩ => ⟨S_, .i32⟩
  | .hbm, ⟨43, _⟩ => ⟨S1300000, .i32⟩
  | .hbm, ⟨44, _⟩ => ⟨S1300000, .i1⟩
  | .hbm, ⟨45, _⟩ => ⟨S_, .i32⟩
  | .hbm, ⟨46, _⟩ => ⟨S1300000, .i32⟩
  | .hbm, ⟨47, _⟩ => ⟨S1300000, .i32⟩
  | .hbm, ⟨48, _⟩ => ⟨S1300000, .i32⟩
  | .hbm, ⟨49, _⟩ => ⟨S1300000x1, .i32⟩
  | .hbm, ⟨50, _⟩ => ⟨S1300000x64, .f32⟩
  | .hbm, ⟨51, _⟩ => ⟨S1300000x64, .f32⟩
  | .hbm, ⟨52, _⟩ => ⟨S1300000x64, .f32⟩
  | .hbm, ⟨53, _⟩ => ⟨S_, .f32⟩
  | .hbm, ⟨54, _⟩ => ⟨S100000x64, .f32⟩
  | .hbm, ⟨55, _⟩ => ⟨S1300000x1, .i32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S_, .f32⟩
  | .hbm, ⟨60, _⟩ => ⟨S1300000, .f32⟩
  | .hbm, ⟨61, _⟩ => ⟨S_, .f32⟩
  | .hbm, ⟨62, _⟩ => ⟨S100000, .f32⟩
  | .hbm, ⟨63, _⟩ => ⟨S1300000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S_, .i32⟩
  | .hbm, ⟨69, _⟩ => ⟨S1300000, .i32⟩
  | .hbm, ⟨70, _⟩ => ⟨S1300000, .i1⟩
  | .hbm, ⟨71, _⟩ => ⟨S_, .i32⟩
  | .hbm, ⟨72, _⟩ => ⟨S1300000, .i32⟩
  | .hbm, ⟨73, _⟩ => ⟨S1300000, .i32⟩
  | .hbm, ⟨74, _⟩ => ⟨S1300000, .i32⟩
  | .hbm, ⟨75, _⟩ => ⟨S1300000x1, .i32⟩
  | .hbm, ⟨76, _⟩ => ⟨S1300000, .f32⟩
  | .hbm, ⟨77, _⟩ => ⟨S_, .i32⟩
  | .hbm, ⟨78, _⟩ => ⟨S1300000, .i32⟩
  | .hbm, ⟨79, _⟩ => ⟨S1300000, .i1⟩
  | .hbm, ⟨80, _⟩ => ⟨S_, .i32⟩
  | .hbm, ⟨81, _⟩ => ⟨S1300000, .i32⟩
  | .hbm, ⟨82, _⟩ => ⟨S1300000, .i32⟩
  | .hbm, ⟨83, _⟩ => ⟨S1300000, .i32⟩
  | .hbm, ⟨84, _⟩ => ⟨S1300000x1, .i32⟩
  | .hbm, ⟨85, _⟩ => ⟨S1300000, .f32⟩
  | .hbm, ⟨86, _⟩ => ⟨S1300000, .f32⟩
  | .hbm, ⟨87, _⟩ => ⟨S1300000x1, .f32⟩
  | .hbm, ⟨88, _⟩ => ⟨S_, .i32⟩
  | .hbm, ⟨89, _⟩ => ⟨S1300000, .i32⟩
  | .hbm, ⟨90, _⟩ => ⟨S1300000, .i1⟩
  | .hbm, ⟨91, _⟩ => ⟨S_, .i32⟩
  | .hbm, ⟨92, _⟩ => ⟨S1300000, .i32⟩
  | .hbm, ⟨93, _⟩ => ⟨S1300000, .i32⟩
  | .hbm, ⟨94, _⟩ => ⟨S1300000, .i32⟩
  | .hbm, ⟨95, _⟩ => ⟨S1300000x1, .i32⟩
  | .hbm, ⟨96, _⟩ => ⟨S1300000x64, .f32⟩
  | .hbm, ⟨97, _⟩ => ⟨S1300000x64, .f32⟩
  | .hbm, ⟨98, _⟩ => ⟨S1300000x64, .f32⟩
  | .hbm, ⟨99, _⟩ => ⟨S_, .f32⟩
  | .hbm, ⟨100, _⟩ => ⟨S100000x64, .f32⟩
  | .hbm, ⟨101, _⟩ => ⟨S1300000x1, .i32⟩
  | .hbm, ⟨102, _⟩ => ⟨S100000x64, .f32⟩
  | .hbm, ⟨103, _⟩ => ⟨S1x16, .f32⟩
  | .hbm, ⟨104, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x16, .f32⟩
  | .local _ .vmem, ⟨9, _⟩ => ⟨S1x16, .f32⟩
  | .local _ .vmem, ⟨10, _⟩ => ⟨S10000x16, .f32⟩
  | .local _ .vmem, ⟨11, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_c_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_13 : Ref sig .tc := ⟨.hbm, 77, rfl⟩
abbrev main_v56 : Ref sig .tc := ⟨.hbm, 78, rfl⟩
abbrev main_v57 : Ref sig .tc := ⟨.hbm, 79, rfl⟩
abbrev main_c_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_15 : Ref sig .tc := ⟨.hbm, 88, rfl⟩
abbrev main_v65 : Ref sig .tc := ⟨.hbm, 89, rfl⟩
abbrev main_v66 : Ref sig .tc := ⟨.hbm, 90, rfl⟩
abbrev main_c_16 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_17 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_v40) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v76) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v77) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v78) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1200000, .i32⟩
  | .hbm, ⟨8, _⟩ => ⟨S1200000, .i32⟩
  | .hbm, ⟨9, _⟩ => ⟨S1300000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S_, .f32⟩
  | .hbm, ⟨14, _⟩ => ⟨S1300000, .f32⟩
  | .hbm, ⟨15, _⟩ => ⟨S_, .f32⟩
  | .hbm, ⟨16, _⟩ => ⟨S100000, .f32⟩
  | .hbm, ⟨17, _⟩ => ⟨S1300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1300000, .i32⟩
  | .hbm, ⟨24, _⟩ => ⟨S1300000, .i1⟩
  | .hbm, ⟨25, _⟩ => ⟨S_, .i32⟩
  | .hbm, ⟨26, _⟩ => ⟨S1300000, .i32⟩
  | .hbm, ⟨27, _⟩ => ⟨S1300000, .i32⟩
  | .hbm, ⟨28, _⟩ => ⟨S1300000, .i32⟩
  | .hbm, ⟨29, _⟩ => ⟨S1300000x1, .i32⟩
  | .hbm, ⟨30, _⟩ => ⟨S1300000, .f32⟩
  | .hbm, ⟨31, _⟩ => ⟨S_, .i32⟩
  | .hbm, ⟨32, _⟩ => ⟨S1300000, .i32⟩
  | .hbm, ⟨33, _⟩ => ⟨S1300000, .i1⟩
  | .hbm, ⟨34, _⟩ => ⟨S_, .i32⟩
  | .hbm, ⟨35, _⟩ => ⟨S1300000, .i32⟩
  | .hbm, ⟨36, _⟩ => ⟨S1300000, .i32⟩
  | .hbm, ⟨37, _⟩ => ⟨S1300000, .i32⟩
  | .hbm, ⟨38, _⟩ => ⟨S1300000x1, .i32⟩
  | .hbm, ⟨39, _⟩ => ⟨S1300000, .f32⟩
  | .hbm, ⟨40, _⟩ => ⟨S1300000, .f32⟩
  | .hbm, ⟨41, _⟩ => ⟨S1300000x1, .f32⟩
  | .hbm, ⟨42, _⟩ => ⟨S_, .i32⟩
  | .hbm, ⟨43, _⟩ => ⟨S1300000, .i32⟩
  | .hbm, ⟨44, _⟩ => ⟨S1300000, .i1⟩
  | .hbm, ⟨45, _⟩ => ⟨S_, .i32⟩
  | .hbm, ⟨46, _⟩ => ⟨S1300000, .i32⟩
  | .hbm, ⟨47, _⟩ => ⟨S1300000, .i32⟩
  | .hbm, ⟨48, _⟩ => ⟨S1300000, .i32⟩
  | .hbm, ⟨49, _⟩ => ⟨S1300000x1, .i32⟩
  | .hbm, ⟨50, _⟩ => ⟨S1300000x64, .f32⟩
  | .hbm, ⟨51, _⟩ => ⟨S1300000x64, .f32⟩
  | .hbm, ⟨52, _⟩ => ⟨S1300000x64, .f32⟩
  | .hbm, ⟨53, _⟩ => ⟨S_, .f32⟩
  | .hbm, ⟨54, _⟩ => ⟨S100000x64, .f32⟩
  | .hbm, ⟨55, _⟩ => ⟨S1300000x1, .i32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S1300000, .f32⟩
  | .hbm, ⟨66, _⟩ => ⟨S_, .f32⟩
  | .hbm, ⟨67, _⟩ => ⟨S100000, .f32⟩
  | .hbm, ⟨68, _⟩ => ⟨S1300000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S_, .i32⟩
  | .hbm, ⟨74, _⟩ => ⟨S1300000, .i32⟩
  | .hbm, ⟨75, _⟩ => ⟨S1300000, .i1⟩
  | .hbm, ⟨76, _⟩ => ⟨S_, .i32⟩
  | .hbm, ⟨77, _⟩ => ⟨S1300000, .i32⟩
  | .hbm, ⟨78, _⟩ => ⟨S1300000, .i32⟩
  | .hbm, ⟨79, _⟩ => ⟨S1300000, .i32⟩
  | .hbm, ⟨80, _⟩ => ⟨S1300000x1, .i32⟩
  | .hbm, ⟨81, _⟩ => ⟨S1300000, .f32⟩
  | .hbm, ⟨82, _⟩ => ⟨S_, .i32⟩
  | .hbm, ⟨83, _⟩ => ⟨S1300000, .i32⟩
  | .hbm, ⟨84, _⟩ => ⟨S1300000, .i1⟩
  | .hbm, ⟨85, _⟩ => ⟨S_, .i32⟩
  | .hbm, ⟨86, _⟩ => ⟨S1300000, .i32⟩
  | .hbm, ⟨87, _⟩ => ⟨S1300000, .i32⟩
  | .hbm, ⟨88, _⟩ => ⟨S1300000, .i32⟩
  | .hbm, ⟨89, _⟩ => ⟨S1300000x1, .i32⟩
  | .hbm, ⟨90, _⟩ => ⟨S1300000, .f32⟩
  | .hbm, ⟨91, _⟩ => ⟨S1300000, .f32⟩
  | .hbm, ⟨92, _⟩ => ⟨S1300000x1, .f32⟩
  | .hbm, ⟨93, _⟩ => ⟨S_, .i32⟩
  | .hbm, ⟨94, _⟩ => ⟨S1300000, .i32⟩
  | .hbm, ⟨95, _⟩ => ⟨S1300000, .i1⟩
  | .hbm, ⟨96, _⟩ => ⟨S_, .i32⟩
  | .hbm, ⟨97, _⟩ => ⟨S1300000, .i32⟩
  | .hbm, ⟨98, _⟩ => ⟨S1300000, .i32⟩
  | .hbm, ⟨99, _⟩ => ⟨S1300000, .i32⟩
  | .hbm, ⟨100, _⟩ => ⟨S1300000x1, .i32⟩
  | .hbm, ⟨101, _⟩ => ⟨S1300000x64, .f32⟩
  | .hbm, ⟨102, _⟩ => ⟨S1300000x64, .f32⟩
  | .hbm, ⟨103, _⟩ => ⟨S1300000x64, .f32⟩
  | .hbm, ⟨104, _⟩ => ⟨S_, .f32⟩
  | .hbm, ⟨105, _⟩ => ⟨S100000x64, .f32⟩
  | .hbm, ⟨106, _⟩ => ⟨S1300000x1, .i32⟩
  | .hbm, ⟨107, _⟩ => ⟨S100000x64, .f32⟩
  | .hbm, ⟨108, _⟩ => ⟨S100000x16, .f32⟩
  | .hbm, ⟨109, _⟩ => ⟨S1x16, .f32⟩
  | .hbm, ⟨110, _⟩ => ⟨S100000x16, .f32⟩
  | .hbm, ⟨111, _⟩ => ⟨S100000x16, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S100000, .f32⟩
  | .hbm, ⟨116, _⟩ => ⟨S100000, .f32⟩
  | .hbm, ⟨117, _⟩ => ⟨S100000x1, .f32⟩
  | .hbm, ⟨118, _⟩ => ⟨S100000x16, .f32⟩
  | .hbm, ⟨119, _⟩ => ⟨S100000x16, .f32⟩
  | .hbm, ⟨120, _⟩ => ⟨S100000x16, .f32⟩
  | .hbm, ⟨121, _⟩ => ⟨S_, .f32⟩
  | .hbm, ⟨122, _⟩ => ⟨S100000, .f32⟩
  | .hbm, ⟨123, _⟩ => ⟨S100000x1, .f32⟩
  | .hbm, ⟨124, _⟩ => ⟨S100000x1, .f32⟩
  | .hbm, ⟨125, _⟩ => ⟨S100000x16, .f32⟩
  | .hbm, ⟨126, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_cst : Ref sig .tc := ⟨.hbm, 61, rfl⟩
abbrev main_call0_v0 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_c_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_cst : Ref sig .tc := ⟨.hbm, 112, rfl⟩
abbrev main_call1_v0 : Ref sig .tc := ⟨.hbm, 113, rfl⟩
abbrev main_call1_cst_0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_v6 : Ref sig .tc := ⟨.hbm, 120, rfl⟩
abbrev main_call1_cst_1 : Ref sig .tc := ⟨.hbm, 121, rfl⟩
abbrev main_call1_v7 : Ref sig .tc := ⟨.hbm, 122, rfl⟩
abbrev main_call1_v8 : Ref sig .tc := ⟨.hbm, 123, rfl⟩
abbrev main_call1_v9 : Ref sig .tc := ⟨.hbm, 124, rfl⟩
abbrev main_call1_v10 : Ref sig .tc := ⟨.hbm, 125, rfl⟩
abbrev main_v84 : Ref sig .tc := ⟨.hbm, 126, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelBoundaries.lean ====
/-
  The contents of the kernel program's buffers at the boundaries of its two kernel regions, in terms of the reference's
  stages.  The kernel program's host operations before the first region and between the regions are, operation for
  operation, the reference's aggregation (degrees by a scatter-add of ones, their power -1/2 gathered at both ends of
  every edge, the features gathered at the source and scaled, scatter-added at the target), so the array the first region
  is entered with is the reference's first aggregate of the argument arrays, and the array the second region is entered
  with is the reference's second aggregate, provided the first region left the reference's clipped first layer.
  The first stretch is folded in two pieces, cut after the two index vectors (the edge list's two rows with the
  self loops appended): the second piece reads them as given and never looks inside a concatenation.
-/
import proofs.«152130_j28269474742292_1_alg».proof.Proof.Gen.KernelIdeal.Frame
import proofs.«152130_j28269474742292_1_alg».proof.Proof.RefRead
import Idealize.ShloMosaic.Lib.StableHlo.Run
import Idealize.ShloMosaic.Lib.ValueLayout

noncomputable section

namespace Cert.KernelIdeal.Boundaries

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]

/-! ## The first stretch: the two index vectors -/

/-- The first seven operations: the node numbers, the edge list's two rows, each with the node numbers appended. -/
abbrev indexOps : List (HloOp τ sig (Elt F)) := List.take 7 (hostOps0 (F := F))
/-- The rest of the first stretch: the first aggregation and the bias row's reshape. -/
abbrev aggrOps : List (HloOp τ sig (Elt F)) := List.drop 7 (hostOps0 (F := F))

/-- Folding the first stretch is folding its two pieces in turn. -/
theorem after_hostOps0 (V : Valuation τ sig (Elt F)) : after (hostOps0 (F := F)) V = after aggrOps (after indexOps V) := rfl

/-- The source vector: row 0 of the edge list with the node numbers appended. -/
theorem index_row (V : Valuation τ sig (Elt F)) :
    after indexOps V (Proc.devRef .tc main_v3) = Cert.ReferenceIdeal.Read.val_main_v3 (F := F) (V (Proc.devRef .tc main_arg1)) := by
  simp only [indexOps, hostOps0, List.take_succ_cons, List.take_zero]
  after_results
  rfl

/-- The target vector: row 1 of the edge list with the node numbers appended. -/
theorem index_col (V : Valuation τ sig (Elt F)) :
    after indexOps V (Proc.devRef .tc main_v6) = Cert.ReferenceIdeal.Read.val_main_v6 (F := F) (V (Proc.devRef .tc main_arg1)) := by
  simp only [indexOps, hostOps0, List.take_succ_cons, List.take_zero]
  after_results
  rfl

/-- The first seven operations write no argument. -/
theorem index_arg0 (V : Valuation τ sig (Elt F)) : after indexOps V (Proc.devRef .tc main_arg0) = V (Proc.devRef .tc main_arg0) := by
  simp only [indexOps, hostOps0, List.take_succ_cons, List.take_zero]
  after_results_simp
theorem index_arg2 (V : Valuation τ sig (Elt F)) : after indexOps V (Proc.devRef .tc main_arg2) = V (Proc.devRef .tc main_arg2) := by
  simp only [indexOps, hostOps0, List.take_succ_cons, List.take_zero]
  after_results_simp
theorem index_arg3 (V : Valuation τ sig (Elt F)) : after indexOps V (Proc.devRef .tc main_arg3) = V (Proc.devRef .tc main_arg3) := by
  simp only [indexOps, hostOps0, List.take_succ_cons, List.take_zero]
  after_results_simp
theorem index_arg4 (V : Valuation τ sig (Elt F)) : after indexOps V (Proc.devRef .tc main_arg4) = V (Proc.devRef .tc main_arg4) := by
  simp only [indexOps, hostOps0, List.take_succ_cons, List.take_zero]
  after_results_simp
theorem index_arg5 (V : Valuation τ sig (Elt F)) : after indexOps V (Proc.devRef .tc main_arg5) = V (Proc.devRef .tc main_arg5) := by
  simp only [indexOps, hostOps0, List.take_succ_cons, List.take_zero]
  after_results_simp

/-! ## The first stretch: the aggregation over given index vectors -/

set_option maxRecDepth 8192 in
set_option maxHeartbeats 20000000 in
/-- The first aggregate, from contents that hold the two index vectors and the feature matrix. -/
theorem aggr_first (Vp : Valuation τ sig (Elt F)) (x0 : (⟨S100000x64, .f32⟩ : BufTy).Contents (Elt F))
    (x1 : (⟨S2x1200000, .i32⟩ : BufTy).Contents (Elt F))
    (h3 : Vp (Proc.devRef .tc main_v3) = Cert.ReferenceIdeal.Read.val_main_v3 (F := F) x1)
    (h6 : Vp (Proc.devRef .tc main_v6) = Cert.ReferenceIdeal.Read.val_main_v6 (F := F) x1)
    (h0 : Vp (Proc.devRef .tc main_arg0) = x0) :
    after aggrOps Vp (Proc.devRef .tc main_v40) = Cert.ReferenceIdeal.Read.val_main_v40 (F := F) x0 x1 := by
  simp only [aggrOps, hostOps0, List.drop_succ_cons, List.drop_zero]
  after_results_simp
  rw [h3, h6, h0]
  rfl

/-- The bias row handed to the first region: the first bias as a one-row matrix. -/
theorem aggr_bias (Vp : Valuation τ sig (Elt F)) :
    after aggrOps Vp (Proc.devRef .tc main_v41) = shapeCast S1x64 (Vp (Proc.devRef .tc main_arg3)) shapeCasts_S64_S1x64 := by
  simp only [aggrOps, hostOps0, List.drop_succ_cons, List.drop_zero]
  after_results_simp
  rfl

/-- The rest of the first stretch writes neither index vector nor any argument. -/
theorem aggr_row (Vp : Valuation τ sig (Elt F)) : after aggrOps Vp (Proc.devRef .tc main_v3) = Vp (Proc.devRef .tc main_v3) := by
  simp only [aggrOps, hostOps0, List.drop_succ_cons, List.drop_zero]
  after_results_simp
theorem aggr_col (Vp : Valuation τ sig (Elt F)) : after aggrOps Vp (Proc.devRef .tc main_v6) = Vp (Proc.devRef .tc main_v6) := by
  simp only [aggrOps, hostOps0, List.drop_succ_cons, List.drop_zero]
  after_results_simp
theorem aggr_arg2 (Vp : Valuation τ sig (Elt F)) : after aggrOps Vp (Proc.devRef .tc main_arg2) = Vp (Proc.devRef .tc main_arg2) := by
  simp only [aggrOps, hostOps0, List.drop_succ_cons, List.drop_zero]
  after_results_simp
theorem aggr_arg4 (Vp : Valuation τ sig (Elt F)) : after aggrOps Vp (Proc.devRef .tc main_arg4) = Vp (Proc.devRef .tc main_arg4) := by
  simp only [aggrOps, hostOps0, List.drop_succ_cons, List.drop_zero]
  after_results_simp
theorem aggr_arg5 (Vp : Valuation τ sig (Elt F)) : after aggrOps Vp (Proc.devRef .tc main_arg5) = Vp (Proc.devRef .tc main_arg5) := by
  simp only [aggrOps, hostOps0, List.drop_succ_cons, List.drop_zero]
  after_results_simp

/-! ## The second stretch -/

set_option maxRecDepth 8192 in
set_option maxHeartbeats 20000000 in
/-- The second aggregate, from contents that hold the two index vectors and the first layer's output. -/
theorem aggr_second (V2 : Valuation τ sig (Elt F)) (x0 : (⟨S100000x64, .f32⟩ : BufTy).Contents (Elt F))
    (x1 : (⟨S2x1200000, .i32⟩ : BufTy).Contents (Elt F)) (x2 : (⟨S64x64, .f32⟩ : BufTy).Contents (Elt F))
    (x3 : (⟨S64, .f32⟩ : BufTy).Contents (Elt F))
    (h3 : V2 (Proc.devRef .tc main_v3) = Cert.ReferenceIdeal.Read.val_main_v3 (F := F) x1)
    (h6 : V2 (Proc.devRef .tc main_v6) = Cert.ReferenceIdeal.Read.val_main_v6 (F := F) x1)
    (hh : V2 (Proc.devRef .tc main_v42) = Cert.ReferenceIdeal.Read.val_main_v45 (F := F) x0 x1 x2 x3) :
    after (hostOps1 (F := F)) V2 (Proc.devRef .tc main_v76) = Cert.ReferenceIdeal.Read.val_main_v79 (F := F) x0 x1 x2 x3 := by
  simp only [hostOps1]
  after_results_simp
  rw [h3, h6, hh]
  rfl

/-- The bias row handed to the second region: the second bias as a one-row matrix. -/
theorem second_bias (V2 : Valuation τ sig (Elt F)) :
    after (hostOps1 (F := F)) V2 (Proc.devRef .tc main_v77) = shapeCast S1x16 (V2 (Proc.devRef .tc main_arg5)) shapeCasts_S16_S1x16 := by
  simp only [hostOps1]
  after_results_simp
  rfl

/-- The second stretch does not write the second layer's weights. -/
theorem second_arg4 (V2 : Valuation τ sig (Elt F)) : after (hostOps1 (F := F)) V2 (Proc.devRef .tc main_arg4) = V2 (Proc.devRef .tc main_arg4) := by
  simp only [hostOps1]
  after_results_simp

end Cert.KernelIdeal.Boundaries

end
-- ==== Proof.Layers.lean ====
/-
  The two dense layers that close the graph convolutions, as functions on the extended reals.

  For a matrix a of n rows and K columns, weights w (K by N) and a bias b (length N), the affine map sends row r to
  y[r, q] = (sum over k of a[r, k] * w[k, q]) + b[q].  The first layer clips it below at zero; the second subtracts the
  row's maximum m[r], and then the logarithm of the row's sum of exponentials of those differences (the log-softmax
  of the row, computed the numerically stable way).  Both are ROW-LOCAL: entry (r, q) depends on a only through row r,
  which is why a tiling of the rows computes them tile by tile.
-/
import Idealize.ShloMosaic.PureOps.Ideal.Laws
import Idealize.ShloMosaic.Lib.ValueIdx

noncomputable section

namespace Cert.Gcn

open Idealize.ShloMosaic Idealize.ShloMosaic.ValueIdx

variable {n n' K N : ℕ}

/-- Entry (r, q) of a·w + b. -/
def affine (a : (⟨2, ![n, K]⟩ : Shape).Idx → EReal) (w : (⟨2, ![K, N]⟩ : Shape).Idx → EReal) (b : Fin N → EReal)
    (r : Fin n) (q : Fin N) : EReal :=
  (∑ k : Fin K, a (ix2 r k) * w (ix2 k q)) + b q

/-- max(a·w + b, 0), entry by entry; the zero is the single-precision zero word. -/
def reluLayer (a : (⟨2, ![n, K]⟩ : Shape).Idx → EReal) (w : (⟨2, ![K, N]⟩ : Shape).Idx → EReal) (b : Fin N → EReal) :
    (⟨2, ![n, N]⟩ : Shape).Idx → EReal :=
  fun i => max (affine a w b (i 0) (i 1)) (Ideal.ofBits .f32 0x00000000#32)

/-- The maximum of a row, folded from minus infinity (the word 0xFF800000). -/
def rowMax (y : Fin N → EReal) : EReal :=
  (Finset.univ : Finset (Fin N)).fold max (Ideal.ofBits .f32 0xFF800000#32) y

/-- The log-softmax of each row of a·w + b: z = y - max(y), then z - log(sum exp z). -/
def logSoftmaxLayer (a : (⟨2, ![n, K]⟩ : Shape).Idx → EReal) (w : (⟨2, ![K, N]⟩ : Shape).Idx → EReal) (b : Fin N → EReal) :
    (⟨2, ![n, N]⟩ : Shape).Idx → EReal :=
  fun i => (affine a w b (i 0) (i 1) - rowMax (affine a w b (i 0)))
    - Ideal.log (∑ j : Fin N, Ideal.exp (affine a w b (i 0) j - rowMax (affine a w b (i 0))))

/-- The affine map's row r of a is its row r' of a' when the two rows hold the same numbers. -/
theorem affine_row_congr (a : (⟨2, ![n, K]⟩ : Shape).Idx → EReal) (a' : (⟨2, ![n', K]⟩ : Shape).Idx → EReal)
    (w : (⟨2, ![K, N]⟩ : Shape).Idx → EReal) (b : Fin N → EReal) (r : Fin n) (r' : Fin n')
    (h : ∀ k : Fin K, a (ix2 r k) = a' (ix2 r' k)) : affine a w b r = affine a' w b r' := by
  funext q
  unfold affine
  exact congrArg (· + b q) (Finset.sum_congr rfl fun k _ => congrArg (· * w (ix2 k q)) (h k))

/-- Row-locality of the clipped layer: equal rows, equal columns, equal entries. -/
theorem reluLayer_row_congr (a : (⟨2, ![n, K]⟩ : Shape).Idx → EReal) (a' : (⟨2, ![n', K]⟩ : Shape).Idx → EReal)
    (w : (⟨2, ![K, N]⟩ : Shape).Idx → EReal) (b : Fin N → EReal) (i : (⟨2, ![n, N]⟩ : Shape).Idx)
    (i' : (⟨2, ![n', N]⟩ : Shape).Idx) (h : ∀ k : Fin K, a (ix2 (i 0) k) = a' (ix2 (i' 0) k)) (hq : i 1 = i' 1) :
    reluLayer a w b i = reluLayer a' w b i' := by
  unfold reluLayer
  rw [affine_row_congr a a' w b (i 0) (i' 0) h, hq]

/-- Row-locality of the log-softmax layer. -/
theorem logSoftmaxLayer_row_congr (a : (⟨2, ![n, K]⟩ : Shape).Idx → EReal) (a' : (⟨2, ![n', K]⟩ : Shape).Idx → EReal)
    (w : (⟨2, ![K, N]⟩ : Shape).Idx → EReal) (b : Fin N → EReal) (i : (⟨2, ![n, N]⟩ : Shape).Idx)
    (i' : (⟨2, ![n', N]⟩ : Shape).Idx) (h : ∀ k : Fin K, a (ix2 (i 0) k) = a' (ix2 (i' 0) k)) (hq : i 1 = i' 1) :
    logSoftmaxLayer a w b i = logSoftmaxLayer a' w b i' := by
  unfold logSoftmaxLayer
  rw [affine_row_congr a a' w b (i 0) (i' 0) h, hq]

end Cert.Gcn

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnCast.lean ====
/-
  A vector viewed as a column: a length-a array cast to shape a x 1 (what a row reduction that keeps its axis produces)
  holds, at (p, 0), the vector's entry p.  The companion of the library's leading-unit-axis casts, with the unit axis
  trailing.
-/
import Idealize.ShloMosaic.Lib.Pipeline.Value
import Idealize.ShloMosaic.Lib.ValueLayout

namespace Idealize.ShloMosaic.ValueIdx

open Idealize.ShloMosaic

variable {α : Type}

/-- A length-a vector cast to an a x 1 column reads, at (p, u), the vector at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.PayloadRelu.lean ====
/-
  What the first kernel body stores, as a function of the three blocks it loads (a block of rows, the weights, the bias
  row): the affine map of the block of rows clipped below at zero.  Changes of float format are the identity on the
  extended reals, and the matrix unit into a zero accumulator is the plain sum over the contracted coordinate.
-/
import proofs.«152130_j28269474742292_1_alg».proof.Proof.Gen.KernelIdeal.Skeleton
import proofs.«152130_j28269474742292_1_alg».proof.Proof.Layers
import proofs.«152130_j28269474742292_1_alg».proof.Proof.LibPlainDot
import proofs.«152130_j28269474742292_1_alg».proof.Proof.LibColumnBroadcast
import proofs.«152130_j28269474742292_1_alg».proof.Proof.LibColumnCast
import Idealize.ShloMosaic.Lib.Pipeline.Value
import Idealize.ShloMosaic.Lib.ValueLayout

noncomputable section

namespace Cert.KernelIdeal.Payloads

open Cert.KernelIdeal Cert.KernelIdeal.Gen Idealize.ShloMosaic Idealize.ShloMosaic.ValueIdx Cert.Gcn

/-- The first body's store: max(x·w + b, 0) of its block of rows. -/
theorem relu_payload (x0 : Vec Ideal S10000x64 .f32) (x1 : Vec Ideal S64x64 .f32) (x2 : Vec Ideal S1x64 .f32) :
    k0_pay1 (F := Ideal) x0 x1 x2 = reluLayer (n := 10000) (K := 64) (N := 64) x0 x1 (fun q => x2 (ix2 0 q)) := by
  funext i
  obtain ⟨p, q, rfl⟩ : ∃ (p : Fin 10000) (q : Fin 64), i = ix2 p q := ⟨i 0, i 1, eq_ix2 i⟩
  unfold k0_pay1 reluLayer affine
  dsimp only
  -- the clip: a pointwise maximum against the broadcast zero word
  refine (maximumf_apply _ _ _).trans ?_
  refine congrArg₂ max ?_ rfl
  -- the sum of the product and the bias row
  refine (addf_apply _ _ _).trans ?_
  refine congrArg₂ (· + ·) ?_ ?_
  · -- the product into the zero accumulator is the plain sum over the contracted coordinate
    refine (plain_matmul_zero_apply (M := 10000) (K := 64) (N := 64) none _ _ (ix2 p q)).trans ?_
    refine Finset.sum_congr rfl fun k _ => ?_
    refine congrArg₂ (· * ·) ?_ rfl
    -- the narrowing is the identity, and so is the cast to the same shape
    exact congrFun (shapeCast_self x0 shapeCasts_S10000x64_S10000x64) (ix2 p k)
  · -- the bias row broadcast down the rows reads the row at the column
    refine (broadcastTo_1b_ab_apply _ broadcasts_S1x64_S10000x64 p q).trans ?_
    exact congrFun (shapeCast_self x2 shapeCasts_S1x64_S1x64) (ix2 0 q)

end Cert.KernelIdeal.Payloads

end
-- ==== Proof.PayloadLogSoftmax.lean ====
/-
  What the second kernel body stores, as a function of the three blocks it loads (a block of rows, the weights, the bias
  row): the log-softmax of each row of the affine map of the block of rows.  A lane maximum is the fold of max over the
  row's columns from minus infinity, a lane sum the sum over them; a column vector broadcast along the rows is read at its
  row.
-/
import proofs.«152130_j28269474742292_1_alg».proof.Proof.Gen.KernelIdeal.Skeleton
import proofs.«152130_j28269474742292_1_alg».proof.Proof.Layers
import proofs.«152130_j28269474742292_1_alg».proof.Proof.LibPlainDot
import proofs.«152130_j28269474742292_1_alg».proof.Proof.LibColumnBroadcast
import proofs.«152130_j28269474742292_1_alg».proof.Proof.LibColumnCast
import Idealize.ShloMosaic.Lib.Pipeline.Value
import Idealize.ShloMosaic.Lib.ValueLayout

noncomputable section

namespace Cert.KernelIdeal.Payloads

open Cert.KernelIdeal Cert.KernelIdeal.Gen Idealize.ShloMosaic Idealize.ShloMosaic.ValueIdx Cert.Gcn

/-- Over the row index p, the index with lane k put on the reduced axis is (p, k). -/
theorem logSoftmax_lift_lane (p : Fin 10000) (k : Fin 16) : reduces_S10000x16_S10000.lift (ix1 p) k = ix2 p k := by
  funext c
  match c with
  | ⟨0, _⟩ => exact Fin.ext rfl
  | ⟨1, _⟩ => exact Fin.ext rfl

/-- The lane maximum of y, kept as a column and broadcast back along the row, reads at (p, q) the maximum of row p:
    the fold of max over the row's sixteen entries from minus infinity. -/
theorem logSoftmax_laneMax_apply (y : FVec Ideal S10000x16 .f32) (p : Fin 10000) (q : Fin 16) :
    broadcastTo S10000x16
        (shapeCast S10000x1
          (multiReduction .maximumf [1] S10000 y 0xFF800000#32 reduces_S10000x16_S10000 (.inl rfl) rfl)
          shapeCasts_S10000_S10000x1)
        broadcasts_S10000x1_S10000x16 (ix2 p q)
      = rowMax fun j => y (ix2 p j) := by
  refine (broadcastTo_a1_ab_apply _ broadcasts_S10000x1_S10000x16 p q).trans ?_
  refine (shapeCast_a_a1_apply _ shapeCasts_S10000_S10000x1 p 0).trans ?_
  refine (Ideal.multiReduction_maximumf_single y _ reduces_S10000x16_S10000 _ _ (ix1 p)).trans ?_
  unfold rowMax
  exact congrArg (fun f => (Finset.univ : Finset (Fin 16)).fold max (Ideal.ofBits .f32 0xFF800000#32) f)
    (funext fun k => congrArg y (logSoftmax_lift_lane p k))

/-- The logarithm of the lane sum of z, kept as a column and broadcast back along the row, reads at (p, q) the
    logarithm of the sum of row p. -/
theorem logSoftmax_laneLogSum_apply (z : FVec Ideal S10000x16 .f32) (p : Fin 10000) (q : Fin 16) :
    broadcastTo S10000x16
        (log (shapeCast S10000x1
          (multiReduction .add [1] S10000 z 0x00000000#32 reduces_S10000x16_S10000 (.inl rfl) rfl)
          shapeCasts_S10000_S10000x1))
        broadcasts_S10000x1_S10000x16 (ix2 p q)
      = Ideal.log (∑ j : Fin 16, z (ix2 p j)) := by
  refine (broadcastTo_a1_ab_apply _ broadcasts_S10000x1_S10000x16 p q).trans ?_
  refine congrArg Ideal.log ?_
  refine (shapeCast_a_a1_apply _ shapeCasts_S10000_S10000x1 p 0).trans ?_
  refine (Ideal.multiReduction_add_single z _ reduces_S10000x16_S10000 _ _ (ix1 p)).trans ?_
  exact Finset.sum_congr rfl fun k _ => congrArg z (logSoftmax_lift_lane p k)

/-- The stable log-softmax of the rows of y, given what y and the broadcast row maximum m read at each index. -/
theorem logSoftmax_rows (y m : FVec Ideal S10000x16 .f32) (f : Fin 10000 → Fin 16 → EReal)
    (hy : ∀ r c, y (ix2 r c) = f r c) (hm : ∀ r c, m (ix2 r c) = rowMax (f r)) (p : Fin 10000) (q : Fin 16) :
    subf (subf y m)
        (broadcastTo S10000x16
          (log (shapeCast S10000x1
            (multiReduction .add [1] S10000 (exp (subf y m)) 0x00000000#32 reduces_S10000x16_S10000 (.inl rfl) rfl)
            shapeCasts_S10000_S10000x1))
          broadcasts_S10000x1_S10000x16) (ix2 p q)
      = (f p q - rowMax (f p)) - Ideal.log (∑ j : Fin 16, Ideal.exp (f p j - rowMax (f p))) := by
  have hz : ∀ r c, subf y m (ix2 r c) = f r c - rowMax (f r) := fun r c =>
    (subf_apply y m (ix2 r c)).trans (congrArg₂ (· - ·) (hy r c) (hm r c))
  refine (subf_apply _ _ _).trans ?_
  refine congrArg₂ (· - ·) (hz p q) ?_
  refine (logSoftmax_laneLogSum_apply _ p q).trans ?_
  refine congrArg Ideal.log (Finset.sum_congr rfl fun j _ => ?_)
  exact congrArg Ideal.exp (hz p j)

/-- The product plus the bias row, read at (r, c): the affine map of row r at column c. -/
theorem logSoftmax_affine_read (x0 : Vec Ideal S10000x64 .f32) (x1 : Vec Ideal S64x16 .f32) (x2 : Vec Ideal S1x16 .f32)
    (r : Fin 10000) (c : Fin 16) :
    (addf
        (matmul dot_S10000x64_S64x16_S10000x16_1_0_0_1_n_n none
          (truncf .bf16 (shapeCast S10000x64 x0 shapeCasts_S10000x64_S10000x64) bitsLt_bf16_f32)
          (truncf .bf16 x1 bitsLt_bf16_f32) (constant S10000x16 .f32 0x00000000#32))
        (broadcastTo S10000x16 (shapeCast S1x16 x2 shapeCasts_S1x16_S1x16) broadcasts_S1x16_S10000x16)
      : FVec Ideal S10000x16 .f32) (ix2 r c)
      = affine (n := 10000) (K := 64) (N := 16) x0 x1 (fun q => x2 (ix2 0 q)) r c := by
  unfold affine
  refine (addf_apply _ _ _).trans ?_
  refine congrArg₂ (· + ·) ?_ ?_
  · -- the product into the zero accumulator is the plain sum over the contracted coordinate
    refine (plain_matmul_zero_apply (M := 10000) (K := 64) (N := 16) none _ _ (ix2 r c)).trans ?_
    refine Finset.sum_congr rfl fun k _ => ?_
    refine congrArg₂ (· * ·) ?_ rfl
    -- the narrowing is the identity, and so is the cast to the same shape
    exact congrFun (shapeCast_self x0 shapeCasts_S10000x64_S10000x64) (ix2 r k)
  · -- the bias row broadcast down the rows reads the row at the column
    refine (broadcastTo_1b_ab_apply _ broadcasts_S1x16_S10000x16 r c).trans ?_
    exact congrFun (shapeCast_self x2 shapeCasts_S1x16_S1x16) (ix2 0 c)

/-- The second body's store: the log-softmax of each row of x·w + b of its block of rows. -/
theorem logSoftmax_payload (x0 : Vec Ideal S10000x64 .f32) (x1 : Vec Ideal S64x16 .f32) (x2 : Vec Ideal S1x16 .f32) :
    k1_pay1 (F := Ideal) x0 x1 x2 = logSoftmaxLayer (n := 10000) (K := 64) (N := 16) x0 x1 (fun q => x2 (ix2 0 q)) := by
  funext i
  obtain ⟨p, q, rfl⟩ : ∃ (p : Fin 10000) (q : Fin 16), i = ix2 p q := ⟨i 0, i 1, eq_ix2 i⟩
  unfold k1_pay1 logSoftmaxLayer
  dsimp only
  exact logSoftmax_rows _ _ (affine (n := 10000) (K := 64) (N := 16) x0 x1 fun c => x2 (ix2 0 c))
    (logSoftmax_affine_read x0 x1 x2)
    (fun r c => (logSoftmax_laneMax_apply _ r c).trans (congrArg rowMax (funext (logSoftmax_affine_read x0 x1 x2 r)))) p q

end Cert.KernelIdeal.Payloads

end
-- ==== Proof.RegionArrays.lean ====
/-
  Each kernel region's output array after the region, as ONE function of the arrays the region finds: the ten tiles of
  ten thousand rows fill the hundred thousand rows, tile t holding rows 10000·t … 10000·t + 9999, and each layer is
  row-local, so what tile t writes back is the layer of the whole input array read at the tile's rows.
-/
import proofs.«152130_j28269474742292_1_alg».proof.Proof.Gen.KernelIdeal.Frame
import proofs.«152130_j28269474742292_1_alg».proof.Proof.PayloadRelu
import proofs.«152130_j28269474742292_1_alg».proof.Proof.PayloadLogSoftmax
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem Cert.Gcn

variable (V : (c : Dev nD) → (b : Ref sig .tc) → Buf (Elt Ideal) ((c : Thread nD τ).loc b))

/-- The zero offsets, however they are spelt. -/
theorem zero_offsets : (![0, 0] : Fin 2 → Nat) = fun _ => 0 := funext fun a => by fin_cases a <;> rfl

/-- The first region's block indices at tile t: the rows' and the output's blocks are the t-th, the weights' and the
    bias row's the only one. -/
theorem relu_tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- At every tile the weights' block is the whole weight matrix. -/
theorem relu_weights_block (c : Dev nD) (t : Fin cfg0.N) :
    (iblk0 (F := Ideal) V c 1 t : S64x64.Idx → EReal) = (V c main_arg2 : S64x64.Idx → EReal) := by
  obtain ⟨-, -, e0, e1, -, -, -, -⟩ := relu_tile_index t
  funext y
  show (V c main_arg2 : S64x64.Idx → EReal) (((cfg0.win 1).blk t).view.emb y) = (V c main_arg2 : S64x64.Idx → EReal) y
  refine congrArg _ ?_
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- At every tile the bias row's block is the whole bias row. -/
theorem relu_bias_block (c : Dev nD) (t : Fin cfg0.N) :
    (iblk0 (F := Ideal) V c 2 t : S1x64.Idx → EReal) = (V c main_v41 : S1x64.Idx → EReal) := by
  obtain ⟨-, -, -, -, e0, e1, -, -⟩ := relu_tile_index t
  funext y
  show (V c main_v41 : S1x64.Idx → EReal) (((cfg0.win 2).blk t).view.emb y) = (V c main_v41 : S1x64.Idx → EReal) y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Row r of tile t's block of rows is row 10000·t + r of the array, which is where the output's block puts its row r. -/
theorem relu_rows_block (c : Dev nD) (t : Fin cfg0.N) (j : S10000x64.Idx) (k : Fin 64) :
    (iblk0 (F := Ideal) V c 0 t : S10000x64.Idx → EReal) (ix2 (j 0) k)
      = (V c main_v40 : S100000x64.Idx → EReal) (ix2 ((((cfg0.win 3).blk t).view.emb j) 0) k) := by
  obtain ⟨e0, e1, -, -, -, -, e6, e7⟩ := relu_tile_index t
  show (V c main_v40 : S100000x64.Idx → EReal) (((cfg0.win 0).blk t).view.emb (ix2 (j 0) k)) = _
  refine congrArg _ ?_
  funext a; apply Fin.ext
  match a with
  | ⟨0, _⟩ => show win0_0.index t (0 : Fin 2) * 10000 + 1 * (j 0).val = win0_3.index t (0 : Fin 2) * 10000 + 1 * (j 0).val; omega
  | ⟨1, _⟩ => show win0_0.index t (1 : Fin 2) * 64 + 1 * k.val = k.val; omega

/-- What tile t writes back is the tile's rows of the clipped layer of the whole input array. -/
theorem relu_tile (c : Dev nD) (t : Fin cfg0.N) :
    (dat0 (F := Ideal) V c).flushed 3 t
      = ((cfg0.win 3).blk t).view.read (Elt Ideal)
          (reluLayer (n := 100000) (K := 64) (N := 64) (V c main_v40) (V c main_arg2) (fun q => V c main_v41 (ix2 0 q))) := by
  show (cfg0.win 3).cut (grid0.coords t) ((dat0 V c).after 3 t) = _
  rw [after0_3]
  unfold out0_3
  rw [View.canon_unit_zero zero_offsets]
  simp only [View.ld_unit_zero (S := S10000x64) zero_offsets, View.ld_unit_zero (S := S64x64) zero_offsets,
    View.ld_unit_zero (S := S1x64) zero_offsets]
  rw [Payloads.relu_payload, relu_weights_block V c t, relu_bias_block V c t]
  obtain ⟨-, -, -, -, -, -, -, e7⟩ := relu_tile_index t
  funext j
  show reluLayer (n := 10000) (K := 64) (N := 64) (iblk0 (F := Ideal) V c 0 t : S10000x64.Idx → EReal)
        (V c main_arg2 : S64x64.Idx → EReal) (fun q => (V c main_v41 : S1x64.Idx → EReal) (ix2 0 q)) j
      = reluLayer (n := 100000) (K := 64) (N := 64) (V c main_v40 : S100000x64.Idx → EReal)
        (V c main_arg2 : S64x64.Idx → EReal) (fun q => (V c main_v41 : S1x64.Idx → EReal) (ix2 0 q))
        (((cfg0.win 3).blk t).view.emb j)
  refine reluLayer_row_congr _ _ _ _ j (((cfg0.win 3).blk t).view.emb j) (fun k => relu_rows_block V c t j k) ?_
  apply Fin.ext
  show (j 1).val = win0_3.index t (1 : Fin 2) * 64 + 1 * (j 1).val
  omega

/-- A position of the output array is in tile t's block exactly when each coordinate is in the block's range. -/
theorem relu_mem_tile (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v42).slice (win0_3.rect t)).set ↔ _
  rw [View.set_slice_whole, Rect.mem_set_unit]
  exact Iff.rfl

/-- The ten tiles fill the array: row r is in tile r / 10000, which writes back. -/
theorem relu_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 10000 < 10 := by omega
  obtain ⟨-, -, -, -, -, -, e6, e7⟩ := relu_tile_index ⟨(i 0).val / 10000, ht⟩
  have e6' : win0_3.index ⟨(i 0).val / 10000, ht⟩ (0 : Fin 2) = (i 0).val / 10000 := e6
  refine ⟨⟨(i 0).val / 10000, ht⟩, flush0_3 _, ?_⟩
  rw [relu_mem_tile]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    omega

/-- After the first region its output array is the clipped layer of the region's input array, weights and bias row. -/
theorem relu_region (c : Dev nD) :
    (dat0 (F := Ideal) V c).arrAt 3 cfg0.N
      = reluLayer (n := 100000) (K := 64) (N := 64) (V c main_v40) (V c main_arg2) (fun q => V c main_v41 (ix2 0 q)) :=
  (dat0 (F := Ideal) V c).arrAt_eq_of_cover 3 _ (fun t _ => relu_tile V c t) relu_cover

/-- The second region's block indices at tile t: the rows' and the output's blocks are the t-th, the weights' and the
    bias row's the only one. -/
theorem logSoftmax_tile_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- At every tile the weights' block is the whole weight matrix. -/
theorem logSoftmax_weights_block (c : Dev nD) (t : Fin cfg1.N) :
    (iblk1 (F := Ideal) V c 1 t : S64x16.Idx → EReal) = (V c main_arg4 : S64x16.Idx → EReal) := by
  obtain ⟨-, -, e0, e1, -, -, -, -⟩ := logSoftmax_tile_index t
  funext y
  show (V c main_arg4 : S64x16.Idx → EReal) (((cfg1.win 1).blk t).view.emb y) = (V c main_arg4 : S64x16.Idx → EReal) y
  refine congrArg _ ?_
  funext a; apply Fin.ext
  match a with
  | ⟨0, _⟩ => show win1_1.index t (0 : Fin 2) * 64 + 1 * (y 0).val = (y 0).val; omega
  | ⟨1, _⟩ => show win1_1.index t (1 : Fin 2) * 16 + 1 * (y 1).val = (y 1).val; omega

/-- At every tile the bias row's block is the whole bias row. -/
theorem logSoftmax_bias_block (c : Dev nD) (t : Fin cfg1.N) :
    (iblk1 (F := Ideal) V c 2 t : S1x16.Idx → EReal) = (V c main_v77 : S1x16.Idx → EReal) := by
  obtain ⟨-, -, -, -, e0, e1, -, -⟩ := logSoftmax_tile_index t
  funext y
  show (V c main_v77 : S1x16.Idx → EReal) (((cfg1.win 2).blk t).view.emb y) = (V c main_v77 : S1x16.Idx → EReal) y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 16 + 1 * (y 1).val = (y 1).val; omega

/-- Row r of tile t's block of rows is row 10000·t + r of the array, which is where the output's block puts its row r. -/
theorem logSoftmax_rows_block (c : Dev nD) (t : Fin cfg1.N) (j : S10000x16.Idx) (k : Fin 64) :
    (iblk1 (F := Ideal) V c 0 t : S10000x64.Idx → EReal) (ix2 (j 0) k)
      = (V c main_v76 : S100000x64.Idx → EReal) (ix2 ((((cfg1.win 3).blk t).view.emb j) 0) k) := by
  obtain ⟨e0, e1, -, -, -, -, e6, e7⟩ := logSoftmax_tile_index t
  show (V c main_v76 : S100000x64.Idx → EReal) (((cfg1.win 0).blk t).view.emb (ix2 (j 0) k)) = _
  refine congrArg _ ?_
  funext a; apply Fin.ext
  match a with
  | ⟨0, _⟩ => show win1_0.index t (0 : Fin 2) * 10000 + 1 * (j 0).val = win1_3.index t (0 : Fin 2) * 10000 + 1 * (j 0).val; omega
  | ⟨1, _⟩ => show win1_0.index t (1 : Fin 2) * 64 + 1 * k.val = k.val; omega

/-- What tile t writes back is the tile's rows of the log-softmax layer of the whole input array. -/
theorem logSoftmax_tile (c : Dev nD) (t : Fin cfg1.N) :
    (dat1 (F := Ideal) V c).flushed 3 t
      = ((cfg1.win 3).blk t).view.read (Elt Ideal)
          (logSoftmaxLayer (n := 100000) (K := 64) (N := 16) (V c main_v76) (V c main_arg4) (fun q => V c main_v77 (ix2 0 q))) := by
  show (cfg1.win 3).cut (grid1.coords t) ((dat1 V c).after 3 t) = _
  rw [after1_3]
  unfold out1_3
  rw [View.canon_unit_zero zero_offsets]
  simp only [View.ld_unit_zero (S := S10000x64) zero_offsets, View.ld_unit_zero (S := S64x16) zero_offsets,
    View.ld_unit_zero (S := S1x16) zero_offsets]
  rw [Payloads.logSoftmax_payload, logSoftmax_weights_block V c t, logSoftmax_bias_block V c t]
  obtain ⟨-, -, -, -, -, -, -, e7⟩ := logSoftmax_tile_index t
  funext j
  show logSoftmaxLayer (n := 10000) (K := 64) (N := 16) (iblk1 (F := Ideal) V c 0 t : S10000x64.Idx → EReal)
        (V c main_arg4 : S64x16.Idx → EReal) (fun q => (V c main_v77 : S1x16.Idx → EReal) (ix2 0 q)) j
      = logSoftmaxLayer (n := 100000) (K := 64) (N := 16) (V c main_v76 : S100000x64.Idx → EReal)
        (V c main_arg4 : S64x16.Idx → EReal) (fun q => (V c main_v77 : S1x16.Idx → EReal) (ix2 0 q))
        (((cfg1.win 3).blk t).view.emb j)
  refine logSoftmaxLayer_row_congr _ _ _ _ j (((cfg1.win 3).blk t).view.emb j) (fun k => logSoftmax_rows_block V c t j k) ?_
  apply Fin.ext
  show (j 1).val = win1_3.index t (1 : Fin 2) * 16 + 1 * (j 1).val
  omega

/-- A position of the output array is in tile t's block exactly when each coordinate is in the block's range. -/
theorem logSoftmax_mem_tile (t : Fin cfg1.N) (i : S100000x16.Idx) :
    i ∈ ((cfg1.win 3).blk t).view.set ↔ ∀ a : Fin 2, win1_3.index t a * S10000x16.size a ≤ (i a).val
      ∧ (i a).val < win1_3.index t a * S10000x16.size a + S10000x16.size a := by
  show i ∈ ((View.whole main_v78).slice (win1_3.rect t)).set ↔ _
  rw [View.set_slice_whole, Rect.mem_set_unit]
  exact Iff.rfl

/-- The ten tiles fill the array: row r is in tile r / 10000, which writes back. -/
theorem logSoftmax_cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have ht : (i 0).val / 10000 < 10 := by omega
  obtain ⟨-, -, -, -, -, -, e6, e7⟩ := logSoftmax_tile_index ⟨(i 0).val / 10000, ht⟩
  have e6' : win1_3.index ⟨(i 0).val / 10000, ht⟩ (0 : Fin 2) = (i 0).val / 10000 := e6
  refine ⟨⟨(i 0).val / 10000, ht⟩, flush1_3 _, ?_⟩
  rw [logSoftmax_mem_tile]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    omega
  | ⟨1, _⟩ =>
    show win1_3.index ⟨(i 0).val / 10000, ht⟩ (1 : Fin 2) * 16 ≤ (i 1).val
      ∧ (i 1).val < win1_3.index ⟨(i 0).val / 10000, ht⟩ (1 : Fin 2) * 16 + 16
    omega

/-- After the second region its output array is the log-softmax layer of the region's input array, weights and bias row. -/
theorem logSoftmax_region (c : Dev nD) :
    (dat1 (F := Ideal) V c).arrAt 3 cfg1.N
      = logSoftmaxLayer (n := 100000) (K := 64) (N := 16) (V c main_v76) (V c main_arg4) (fun q => V c main_v77 (ix2 0 q)) :=
  (dat1 (F := Ideal) V c).arrAt_eq_of_cover 3 _ (fun t _ => logSoftmax_tile V c t) logSoftmax_cover

end Cert.KernelIdeal.Regions

end
-- ==== Proof.RefLayers.lean ====
/-
  The reference's two dense layers, read off its stages index by index: the stage after the first graph convolution's
  clip is the clipped layer of the first aggregate, and the program's result is the log-softmax layer of the second
  aggregate.  The host's dot product is the plain sum over the contracted coordinate, a bias broadcast down the rows is
  read at its column, the row maximum is a fold of max from minus infinity (taking the maximum with minus infinity once
  more changes nothing), and the row sum starts from zero.
-/
import proofs.«152130_j28269474742292_1_alg».proof.Proof.RefRead
import proofs.«152130_j28269474742292_1_alg».proof.Proof.Layers
import proofs.«152130_j28269474742292_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws
import Idealize.ShloMosaic.PureOps.Reduce

noncomputable section

namespace Cert.ReferenceIdeal.Layers

open Cert.ReferenceIdeal Cert.ReferenceIdeal.Gen Cert.ReferenceIdeal.Read Idealize.ShloMosaic Idealize.ShloMosaic.ValueIdx Cert.Gcn

/-- The stage after the first layer's clip is the clipped layer of the first aggregate. -/
theorem relu_stage (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal)) :
    val_main_v45 (F := Ideal) x0 x1 x2 x3
      = reluLayer (n := 100000) (K := 64) (N := 64) (val_main_v40 (F := Ideal) x0 x1) x2 (fun q => x3 (ix1 q)) := by
  funext i
  unfold reluLayer affine
  rw [val_main_v45_apply, val_main_v44_apply, val_main_v41_apply, val_main_v43_apply, val_main_v42_apply,
    val_main_call0_v0_apply, val_main_call0_cst_apply]
  -- the dot's operand indices at (r, q) and k are (r, k) and (k, q); the bias is read at the column q
  have el : ∀ k : Fin 64, lidx_main_v41 i k = (ix2 (i 0) k : S100000x64.Idx) := fun k =>
    funext fun a => Fin.ext (by match a with | ⟨0, _⟩ => rfl | ⟨1, _⟩ => rfl)
  have er : ∀ k : Fin 64, ridx_main_v41 i k = (ix2 k (i 1) : S64x64.Idx) := fun k =>
    funext fun a => Fin.ext (by match a with | ⟨0, _⟩ => rfl | ⟨1, _⟩ => rfl)
  have eb : idx_main_v42 (idx_main_v43 i) = (ix1 (i 1) : S64.Idx) :=
    funext fun a => Fin.ext (by match a with | ⟨0, _⟩ => rfl)
  simp only [el, er, eb, Ideal.maximumf_def, Ideal.addf_def, Ideal.ofBits_def]

/-- The word 0xFF800000 is minus infinity: the maximum with it changes nothing. -/
private theorem max_bot_word (x : Ideal .f32) :
    FloatOps.maximumf (F := Ideal) (FloatOps.ofBits .f32 0xFF800000#32) x = x := by
  show max (Ideal.ofBits .f32 0xFF800000#32) x = x
  simp [Ideal.ofBits, Ideal.ieee]

/-- The fold of the float maximum over a row, from the word of minus infinity, is the row maximum. -/
private theorem fold_maximumf_eq_rowMax (f : Fin 16 → EReal) :
    Finset.fold (FloatOps.maximumf (F := Ideal) (φ := .f32)) (FloatOps.ofBits .f32 0xFF800000#32) f Finset.univ
      = rowMax f := rfl

/-- The log-softmax layer at (r, q), in coordinates. -/
private theorem logSoftmaxLayer_ix2 {n K N : ℕ} (a : (⟨2, ![n, K]⟩ : Shape).Idx → EReal) (w : (⟨2, ![K, N]⟩ : Shape).Idx → EReal)
    (b : Fin N → EReal) (r : Fin n) (q : Fin N) :
    logSoftmaxLayer a w b (ix2 r q)
      = (affine a w b r q - rowMax (affine a w b r))
        - Ideal.log (∑ j : Fin N, Ideal.exp (affine a w b r j - rowMax (affine a w b r))) := rfl

/-- The second affine layer at (r, q): the dot's operand indices are (r, k) and (k, q), the bias is read at q. -/
private theorem affine_stage (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) (r : Fin 100000) (q : Fin 16) :
    val_main_v83 (F := Ideal) x0 x1 x2 x3 x4 x5 (ix2 r q) = affine (n := 100000) (K := 64) (N := 16) (val_main_v79 (F := Ideal) x0 x1 x2 x3) x4 (fun q => x5 (ix1 q)) r q := by
  unfold affine
  rw [val_main_v83_apply, val_main_v80_apply, val_main_v82_apply, val_main_v81_apply]
  have el : ∀ k : Fin 64, lidx_main_v80 (ix2 r q) k = (ix2 r k : S100000x64.Idx) := fun k =>
    funext fun a => Fin.ext (by match a with | ⟨0, _⟩ => rfl | ⟨1, _⟩ => rfl)
  have er : ∀ k : Fin 64, ridx_main_v80 (ix2 r q) k = (ix2 k q : S64x16.Idx) := fun k =>
    funext fun a => Fin.ext (by match a with | ⟨0, _⟩ => rfl | ⟨1, _⟩ => rfl)
  have eb : idx_main_v81 (idx_main_v82 (ix2 r q)) = (ix1 q : S16.Idx) :=
    funext fun a => Fin.ext (by match a with | ⟨0, _⟩ => rfl)
  simp only [el, er, eb, Ideal.addf_def]

/-- The row maximum at r: the fold of max over the row's sixteen entries, from minus infinity. -/
private theorem rowMax_stage (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) (r : Fin 100000) :
    val_main_call1_v2 (F := Ideal) x0 x1 x2 x3 x4 x5 (ix1 r) = rowMax (affine (n := 100000) (K := 64) (N := 16) (val_main_v79 (F := Ideal) x0 x1 x2 x3) x4 (fun q => x5 (ix1 q)) r) := by
  have hR : S100000x16.Reduces [1] S100000 := by decide
  rw [val_main_call1_v2_apply, val_main_call1_v1_apply, val_main_call1_cst_0_apply, max_bot_word]
  unfold val_main_call1_v0
  rw [Host.reduce_eq_fold_single FloatOps.maximumf _ _ reducesTo_S100000x16_S100000_d1 hR h_S_ (ix1 r)]
  -- row r with the coordinate k put back on the reduced axis is (r, k)
  have hf : (val_main_v83 (F := Ideal) x0 x1 x2 x3 x4 x5 ∘ hR.lift (ix1 r)) = affine (n := 100000) (K := 64) (N := 16) (val_main_v79 (F := Ideal) x0 x1 x2 x3) x4 (fun q => x5 (ix1 q)) r :=
    funext fun k => by
      have hl : hR.lift (ix1 r) k = (ix2 r k : S100000x16.Idx) :=
        funext fun c => Fin.ext (by match c with | ⟨0, _⟩ => rfl | ⟨1, _⟩ => rfl)
      rw [Function.comp_apply, hl]
      exact affine_stage x0 x1 x2 x3 x4 x5 r k
  rw [hf, val_main_call1_cst_apply]
  exact fold_maximumf_eq_rowMax _

/-- The shifted entry at (r, q): the affine entry minus its row's maximum, the maximum's column broadcast along the row. -/
private theorem shifted_stage (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) (r : Fin 100000) (q : Fin 16) :
    val_main_call1_v5 (F := Ideal) x0 x1 x2 x3 x4 x5 (ix2 r q) = affine (n := 100000) (K := 64) (N := 16) (val_main_v79 (F := Ideal) x0 x1 x2 x3) x4 (fun q => x5 (ix1 q)) r q - rowMax (affine (n := 100000) (K := 64) (N := 16) (val_main_v79 (F := Ideal) x0 x1 x2 x3) x4 (fun q => x5 (ix1 q)) r) := by
  have e3 : idx_main_call1_v3 (idx_main_call1_v4 (ix2 r q)) = (ix1 r : S100000.Idx) :=
    funext fun a => Fin.ext (by match a with | ⟨0, _⟩ => rfl)
  rw [val_main_call1_v5_apply, val_main_call1_v4_apply, val_main_call1_v3_apply, e3, rowMax_stage, affine_stage,
    Ideal.subf_def]

/-- The program's result is the log-softmax layer of the second aggregate. -/
theorem logSoftmax_stage (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) :
    val_main_v84 (F := Ideal) x0 x1 x2 x3 x4 x5
      = logSoftmaxLayer (n := 100000) (K := 64) (N := 16) (val_main_v79 (F := Ideal) x0 x1 x2 x3) x4 (fun q => x5 (ix1 q)) := by
  funext i
  obtain ⟨r, q, rfl⟩ : ∃ r q, i = ix2 r q := ⟨i 0, i 1, eq_ix2 i⟩
  have e8 : idx_main_call1_v8 (idx_main_call1_v10 (ix2 r q)) = (ix1 r : S100000.Idx) :=
    funext fun a => Fin.ext (by match a with | ⟨0, _⟩ => rfl)
  have e7 : ∀ k : Fin 16, idx_main_call1_v7 (ix1 r) k = (ix2 r k : S100000x16.Idx) := fun k =>
    funext fun a => Fin.ext (by match a with | ⟨0, _⟩ => rfl | ⟨1, _⟩ => rfl)
  -- each summand of the row sum is the exponential of the shifted entry
  have hs : ∑ k : Fin 16, val_main_call1_v6 (F := Ideal) x0 x1 x2 x3 x4 x5 (idx_main_call1_v7 (ix1 r) k)
      = ∑ j : Fin 16, Ideal.exp (affine (n := 100000) (K := 64) (N := 16) (val_main_v79 (F := Ideal) x0 x1 x2 x3) x4 (fun q => x5 (ix1 q)) r j - rowMax (affine (n := 100000) (K := 64) (N := 16) (val_main_v79 (F := Ideal) x0 x1 x2 x3) x4 (fun q => x5 (ix1 q)) r)) :=
    Finset.sum_congr rfl fun k _ => by
      rw [e7, val_main_call1_v6_apply, shifted_stage, Ideal.hostUnary_exp_def]
  rw [logSoftmaxLayer_ix2, val_main_v84_apply, val_main_call1_v10_apply, val_main_call1_v9_apply, val_main_call1_v8_apply, e8,
    val_main_call1_v7_apply, val_main_call1_cst_1_apply, shifted_stage, hs, Ideal.subf_def, Ideal.hostUnary_log_def,
    Ideal.ofBits_def, Ideal.ofBits_zero_f32, zero_add]

end Cert.ReferenceIdeal.Layers

end
-- ==== Proof.KernelResult.lean ====
/-
  The kernel program's result as a function of its arguments, on the extended reals: the reference's last stage.
  The first region is entered with the reference's first aggregate and leaves the clipped first layer of it, which is
  the reference's stage after its clip; the second stretch turns that into the reference's second aggregate, and the
  second region leaves the log-softmax layer of it, which is the reference's result.  Between the boundaries the two
  index vectors and the weights keep their contents: no region writes them.
-/
import proofs.«152130_j28269474742292_1_alg».proof.Proof.KernelBoundaries
import proofs.«152130_j28269474742292_1_alg».proof.Proof.RegionArrays
import proofs.«152130_j28269474742292_1_alg».proof.Proof.RefLayers

noncomputable section

namespace Cert.KernelIdeal.Result

open Cert.KernelIdeal Cert.KernelIdeal.Gen Cert.KernelIdeal.Boundaries
open Idealize.ShloMosaic Idealize.ShloMosaic.TcCoe Idealize.SL.Sem Idealize.ShloMosaic.StableHlo Idealize.ShloMosaic.ValueIdx Cert.Gcn

variable (m : (ℓ : Loc nD τ sig) → Buf (Elt Ideal) ℓ) (ρ : Dev nD → PrngReg)

/-! ## Entering the first region -/

/-- The first region's input array is the reference's first aggregate. -/
theorem first_input (c : Dev nD) :
    V1 m ρ c main_v40 = Cert.ReferenceIdeal.Read.val_main_v40 (F := Ideal) (m ((c : Thread nD τ).loc main_arg0)) (m ((c : Thread nD τ).loc main_arg1)) := by
  show after (hostOps0 (F := Ideal)) (W0 m ρ c) (Proc.devRef .tc main_v40) = _
  rw [after_hostOps0]
  exact aggr_first _ _ _ (index_row _) (index_col _) (index_arg0 _)

/-- Its weights are the first layer's. -/
theorem first_weights (c : Dev nD) : V1 m ρ c main_arg2 = m ((c : Thread nD τ).loc main_arg2) := by
  show after (hostOps0 (F := Ideal)) (W0 m ρ c) (Proc.devRef .tc main_arg2) = _
  rw [after_hostOps0, aggr_arg2, index_arg2]

/-- Its bias row holds the first bias. -/
theorem first_bias (c : Dev nD) (q : Fin 64) : V1 m ρ c main_v41 (ix2 0 q) = m ((c : Thread nD τ).loc main_arg3) (ix1 q) := by
  show after (hostOps0 (F := Ideal)) (W0 m ρ c) (Proc.devRef .tc main_v41) (ix2 0 q) = _
  rw [after_hostOps0, aggr_bias, index_arg3]
  exact shapeCast_a_1a_apply _ _ 0 q

/-- The index vectors at the first region's entry. -/
theorem first_row (c : Dev nD) :
    W1 m ρ c (Proc.devRef .tc main_v3) = Cert.ReferenceIdeal.Read.val_main_v3 (F := Ideal) (m ((c : Thread nD τ).loc main_arg1)) := by
  show after (hostOps0 (F := Ideal)) (W0 m ρ c) (Proc.devRef .tc main_v3) = _
  rw [after_hostOps0, aggr_row]
  exact index_row _
theorem first_col (c : Dev nD) :
    W1 m ρ c (Proc.devRef .tc main_v6) = Cert.ReferenceIdeal.Read.val_main_v6 (F := Ideal) (m ((c : Thread nD τ).loc main_arg1)) := by
  show after (hostOps0 (F := Ideal)) (W0 m ρ c) (Proc.devRef .tc main_v6) = _
  rw [after_hostOps0, aggr_col]
  exact index_col _

/-! ## Leaving the first region -/

/-- The first region leaves the reference's clipped first layer. -/
theorem first_output (c : Dev nD) :
    W2 m ρ c (Proc.devRef .tc main_v42)
      = Cert.ReferenceIdeal.Read.val_main_v45 (F := Ideal) (m ((c : Thread nD τ).loc main_arg0)) (m ((c : Thread nD τ).loc main_arg1))
          (m ((c : Thread nD τ).loc main_arg2)) (m ((c : Thread nD τ).loc main_arg3)) := by
  refine (W2_arr m ρ c 3).trans ((Regions.relu_region (V1 m ρ) c).trans ?_)
  rw [first_input, first_weights, funext (first_bias m ρ c)]
  exact (Cert.ReferenceIdeal.Layers.relu_stage _ _ _ _).symm

/-! ## Entering and leaving the second region -/

/-- The second region's input array is the reference's second aggregate. -/
theorem second_input (c : Dev nD) :
    V3 m ρ c main_v76
      = Cert.ReferenceIdeal.Read.val_main_v79 (F := Ideal) (m ((c : Thread nD τ).loc main_arg0)) (m ((c : Thread nD τ).loc main_arg1))
          (m ((c : Thread nD τ).loc main_arg2)) (m ((c : Thread nD τ).loc main_arg3)) :=
  aggr_second (W2 m ρ c) _ _ _ _
    ((W2_of_ne m ρ c main_v3 (by decide)).trans (first_row m ρ c))
    ((W2_of_ne m ρ c main_v6 (by decide)).trans (first_col m ρ c))
    (first_output m ρ c)

/-- Its weights are the second layer's. -/
theorem second_weights (c : Dev nD) : V3 m ρ c main_arg4 = m ((c : Thread nD τ).loc main_arg4) := by
  show after (hostOps1 (F := Ideal)) (W2 m ρ c) (Proc.devRef .tc main_arg4) = _
  rw [second_arg4, W2_of_ne m ρ c main_arg4 (by decide)]
  show after (hostOps0 (F := Ideal)) (W0 m ρ c) (Proc.devRef .tc main_arg4) = _
  rw [after_hostOps0, aggr_arg4, index_arg4]

/-- Its bias row holds the second bias. -/
theorem second_bias_row (c : Dev nD) (q : Fin 16) : V3 m ρ c main_v77 (ix2 0 q) = m ((c : Thread nD τ).loc main_arg5) (ix1 q) := by
  show after (hostOps1 (F := Ideal)) (W2 m ρ c) (Proc.devRef .tc main_v77) (ix2 0 q) = _
  rw [second_bias, W2_of_ne m ρ c main_arg5 (by decide)]
  show shapeCast S1x16 (after (hostOps0 (F := Ideal)) (W0 m ρ c) (Proc.devRef .tc main_arg5)) shapeCasts_S16_S1x16 (ix2 0 q) = _
  rw [after_hostOps0, aggr_arg5, index_arg5]
  exact shapeCast_a_1a_apply _ _ 0 q

/-- THE RESULT: the second region leaves the reference's last stage of the argument arrays. -/
theorem result_eq (c : Dev nD) :
    W4 m ρ c (Proc.devRef .tc main_v78)
      = Cert.ReferenceIdeal.Read.val_main_v84 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (W4_arr m ρ c 3).trans ((Regions.logSoftmax_region (V3 m ρ) c).trans ?_)
  rw [second_input, second_weights, funext (second_bias_row m ρ c)]
  exact (Cert.ReferenceIdeal.Layers.logSoftmax_stage _ _ _ _ _ _).symm

end Cert.KernelIdeal.Result

end
-- ==== Proof.RefResult.lean ====
/-
  The reference's run, read back at its result: every weakly fair execution of the reference terminates with its result
  buffer at the last stage of its operations (the log-softmax of the second dense layer) as a function of the six
  argument arrays, and the arguments unchanged.  The operations are folded in six stretches, cut at the stages the
  network is made of (the two index vectors: the edge list's rows with the self loops appended; the first aggregate; the
  first dense layer; the second aggregate; the second dense layer; its log-softmax): each stretch reads the earlier
  stages as given, so that no stretch looks inside a concatenation or an earlier stretch.
-/
import proofs.«152130_j28269474742292_1_alg».proof.Proof.RefRead
import Idealize.ShloMosaic.Lib.StableHlo.Run
import Idealize.ShloMosaic.Lib.Pipeline.Frame

noncomputable section

namespace Cert.ReferenceIdeal.Result

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- A fold over a list is the fold over its tail from k of the fold over its first k operations. -/
theorem after_take_drop (k : ℕ) (l : List (HloOp τ sig (Elt F))) (V : Valuation τ sig (Elt F)) :
    after (List.drop k l) (after (List.take k l) V) = after l V := by
  rw [← StableHlo.after_append, List.take_append_drop]

/-! The 121 operations in six stretches: operations 1 to 7 (the two index vectors), 8 to 51 (the first graph
    convolution's normalised aggregation), 52 to 58 (the first dense layer, clipped), 59 to 102 (the second
    aggregation), 103 to 106 (the second dense layer) and 107 to 121 (its log-softmax).  Each stretch is folded from ARBITRARY
    contents that hold what it reads at the stages named in its hypotheses. -/

/-- The first stretch leaves the first index vector (the edges' first row, the self loops appended) at its stage. -/
theorem stretchA_v3 (V : Valuation τ sig (Elt F)) :
    after (List.take 7 (ops (F := F))) V (Proc.devRef .tc main_v3) = val_main_v3 (F := F) (V (Proc.devRef .tc main_arg1)) := by
  simp only [ops, List.take_succ_cons, List.take_zero, List.drop_succ_cons, List.drop_zero]
  after_results
  rfl

/-- The first stretch leaves the second index vector (the edges' second row, the self loops appended) at its stage. -/
theorem stretchA_v6 (V : Valuation τ sig (Elt F)) :
    after (List.take 7 (ops (F := F))) V (Proc.devRef .tc main_v6) = val_main_v6 (F := F) (V (Proc.devRef .tc main_arg1)) := by
  simp only [ops, List.take_succ_cons, List.take_zero, List.drop_succ_cons, List.drop_zero]
  after_results
  rfl

/-- The first stretch writes none of the arguments read later. -/
theorem stretchA_keeps (Vp : Valuation τ sig (Elt F)) :
    after (List.take 7 (ops (F := F))) Vp (Proc.devRef .tc main_arg0) = Vp (Proc.devRef .tc main_arg0)
      ∧ after (List.take 7 (ops (F := F))) Vp (Proc.devRef .tc main_arg2) = Vp (Proc.devRef .tc main_arg2)
      ∧ after (List.take 7 (ops (F := F))) Vp (Proc.devRef .tc main_arg3) = Vp (Proc.devRef .tc main_arg3)
      ∧ after (List.take 7 (ops (F := F))) Vp (Proc.devRef .tc main_arg4) = Vp (Proc.devRef .tc main_arg4)
      ∧ after (List.take 7 (ops (F := F))) Vp (Proc.devRef .tc main_arg5) = Vp (Proc.devRef .tc main_arg5) := by
  simp only [ops, List.take_succ_cons, List.take_zero, List.drop_succ_cons, List.drop_zero]
  refine ⟨?_, ?_, ?_, ?_, ?_⟩ <;> after_results_simp

set_option maxRecDepth 8192 in
set_option maxHeartbeats 48400000 in
/-- The second stretch: from the two index vectors and the features, the first aggregation. -/
theorem stretchB (Vp : Valuation τ sig (Elt F)) (x0 : (⟨S100000x64, .f32⟩ : BufTy).Contents (Elt F)) (x1 : (⟨S2x1200000, .i32⟩ : BufTy).Contents (Elt F))
    (h3 : Vp (Proc.devRef .tc main_v3) = val_main_v3 (F := F) x1) (h6 : Vp (Proc.devRef .tc main_v6) = val_main_v6 (F := F) x1)
    (h0 : Vp (Proc.devRef .tc main_arg0) = x0) :
    after (List.take 44 (List.drop 7 (ops (F := F)))) Vp (Proc.devRef .tc main_v40) = val_main_v40 (F := F) x0 x1 := by
  simp only [ops, List.take_succ_cons, List.take_zero, List.drop_succ_cons, List.drop_zero]
  after_results_simp
  rw [h3, h6, h0]
  rfl

/-- The second stretch writes neither index vector nor any argument read later. -/
theorem stretchB_keeps (Vp : Valuation τ sig (Elt F)) :
    after (List.take 44 (List.drop 7 (ops (F := F)))) Vp (Proc.devRef .tc main_v3) = Vp (Proc.devRef .tc main_v3)
      ∧ after (List.take 44 (List.drop 7 (ops (F := F)))) Vp (Proc.devRef .tc main_v6) = Vp (Proc.devRef .tc main_v6)
      ∧ after (List.take 44 (List.drop 7 (ops (F := F)))) Vp (Proc.devRef .tc main_arg2) = Vp (Proc.devRef .tc main_arg2)
      ∧ after (List.take 44 (List.drop 7 (ops (F := F)))) Vp (Proc.devRef .tc main_arg3) = Vp (Proc.devRef .tc main_arg3)
      ∧ after (List.take 44 (List.drop 7 (ops (F := F)))) Vp (Proc.devRef .tc main_arg4) = Vp (Proc.devRef .tc main_arg4)
      ∧ after (List.take 44 (List.drop 7 (ops (F := F)))) Vp (Proc.devRef .tc main_arg5) = Vp (Proc.devRef .tc main_arg5) := by
  simp only [ops, List.take_succ_cons, List.take_zero, List.drop_succ_cons, List.drop_zero]
  refine ⟨?_, ?_, ?_, ?_, ?_, ?_⟩ <;> after_results_simp

set_option maxRecDepth 8192 in
set_option maxHeartbeats 48400000 in
/-- The third stretch: from the first aggregation, the first weights and bias, the first dense layer clipped at zero. -/
theorem stretchC (Vp : Valuation τ sig (Elt F)) (x0 : (⟨S100000x64, .f32⟩ : BufTy).Contents (Elt F)) (x1 : (⟨S2x1200000, .i32⟩ : BufTy).Contents (Elt F)) (x2 : (⟨S64x64, .f32⟩ : BufTy).Contents (Elt F)) (x3 : (⟨S64, .f32⟩ : BufTy).Contents (Elt F))
    (h40 : Vp (Proc.devRef .tc main_v40) = val_main_v40 (F := F) x0 x1)
    (h2 : Vp (Proc.devRef .tc main_arg2) = x2) (h3 : Vp (Proc.devRef .tc main_arg3) = x3) :
    after (List.take 7 (List.drop 44 (List.drop 7 (ops (F := F))))) Vp (Proc.devRef .tc main_v45) = val_main_v45 (F := F) x0 x1 x2 x3 := by
  simp only [ops, List.take_succ_cons, List.take_zero, List.drop_succ_cons, List.drop_zero]
  after_results_simp
  rw [h40, h2, h3]
  rfl

/-- The third stretch writes neither index vector nor any argument read later. -/
theorem stretchC_keeps (Vp : Valuation τ sig (Elt F)) :
    after (List.take 7 (List.drop 44 (List.drop 7 (ops (F := F))))) Vp (Proc.devRef .tc main_v3) = Vp (Proc.devRef .tc main_v3)
      ∧ after (List.take 7 (List.drop 44 (List.drop 7 (ops (F := F))))) Vp (Proc.devRef .tc main_v6) = Vp (Proc.devRef .tc main_v6)
      ∧ after (List.take 7 (List.drop 44 (List.drop 7 (ops (F := F))))) Vp (Proc.devRef .tc main_arg4) = Vp (Proc.devRef .tc main_arg4)
      ∧ after (List.take 7 (List.drop 44 (List.drop 7 (ops (F := F))))) Vp (Proc.devRef .tc main_arg5) = Vp (Proc.devRef .tc main_arg5) := by
  simp only [ops, List.take_succ_cons, List.take_zero, List.drop_succ_cons, List.drop_zero]
  refine ⟨?_, ?_, ?_, ?_⟩ <;> after_results_simp

set_option maxRecDepth 8192 in
set_option maxHeartbeats 48400000 in
/-- The fourth stretch: from the two index vectors and the first layer's output, the second aggregation. -/
theorem stretchD (Vp : Valuation τ sig (Elt F)) (x0 : (⟨S100000x64, .f32⟩ : BufTy).Contents (Elt F)) (x1 : (⟨S2x1200000, .i32⟩ : BufTy).Contents (Elt F)) (x2 : (⟨S64x64, .f32⟩ : BufTy).Contents (Elt F)) (x3 : (⟨S64, .f32⟩ : BufTy).Contents (Elt F))
    (h3 : Vp (Proc.devRef .tc main_v3) = val_main_v3 (F := F) x1) (h6 : Vp (Proc.devRef .tc main_v6) = val_main_v6 (F := F) x1)
    (h45 : Vp (Proc.devRef .tc main_v45) = val_main_v45 (F := F) x0 x1 x2 x3) :
    after (List.take 44 (List.drop 7 (List.drop 44 (List.drop 7 (ops (F := F)))))) Vp (Proc.devRef .tc main_v79) = val_main_v79 (F := F) x0 x1 x2 x3 := by
  simp only [ops, List.take_succ_cons, List.take_zero, List.drop_succ_cons, List.drop_zero]
  after_results_simp
  rw [h3, h6, h45]
  rfl

/-- The fourth stretch writes neither of the last two arguments. -/
theorem stretchD_keeps (Vp : Valuation τ sig (Elt F)) :
    after (List.take 44 (List.drop 7 (List.drop 44 (List.drop 7 (ops (F := F)))))) Vp (Proc.devRef .tc main_arg4) = Vp (Proc.devRef .tc main_arg4)
      ∧ after (List.take 44 (List.drop 7 (List.drop 44 (List.drop 7 (ops (F := F)))))) Vp (Proc.devRef .tc main_arg5) = Vp (Proc.devRef .tc main_arg5) := by
  simp only [ops, List.take_succ_cons, List.take_zero, List.drop_succ_cons, List.drop_zero]
  refine ⟨?_, ?_⟩ <;> after_results_simp

/-- Contents written through a typed reference and read back through it are the contents. -/
theorem ofBuf_toBuf {T : BufTy} (x : TRef sig T) (v : T.Contents (Elt F)) : x.ofBuf (x.toBuf v) = v := by
  unfold TRef.ofBuf TRef.toBuf
  rw [cast_cast, cast_eq]

set_option maxRecDepth 8192 in
set_option maxHeartbeats 48400000 in
/-- The fifth stretch, first part: from the second aggregation, the second weights and bias, the second dense layer. -/
theorem stretchE1 (Vp : Valuation τ sig (Elt F)) (x0 : (⟨S100000x64, .f32⟩ : BufTy).Contents (Elt F)) (x1 : (⟨S2x1200000, .i32⟩ : BufTy).Contents (Elt F)) (x2 : (⟨S64x64, .f32⟩ : BufTy).Contents (Elt F)) (x3 : (⟨S64, .f32⟩ : BufTy).Contents (Elt F)) (x4 : (⟨S64x16, .f32⟩ : BufTy).Contents (Elt F)) (x5 : (⟨S16, .f32⟩ : BufTy).Contents (Elt F))
    (h79 : Vp (Proc.devRef .tc main_v79) = val_main_v79 (F := F) x0 x1 x2 x3)
    (h4 : Vp (Proc.devRef .tc main_arg4) = x4) (h5 : Vp (Proc.devRef .tc main_arg5) = x5) :
    after (List.take 4 (List.drop 44 (List.drop 7 (List.drop 44 (List.drop 7 (ops (F := F))))))) Vp (Proc.devRef .tc main_v83) = val_main_v83 (F := F) x0 x1 x2 x3 x4 x5 := by
  simp only [ops, List.take_succ_cons, List.take_zero, List.drop_succ_cons, List.drop_zero]
  after_results_simp
  rw [h79, h4, h5]
  rfl

set_option maxRecDepth 8192 in
set_option maxHeartbeats 48400000 in
/-- The fifth stretch, second part: the log-softmax of the second dense layer's rows, from contents that hold that
    layer.  Its operations read and write through typed references; a value written and read back through the same
    reference is the value, so the fold is the plain composition of the fifteen operations. -/
theorem stretchE2 (Vp : Valuation τ sig (Elt F)) (x0 : (⟨S100000x64, .f32⟩ : BufTy).Contents (Elt F)) (x1 : (⟨S2x1200000, .i32⟩ : BufTy).Contents (Elt F)) (x2 : (⟨S64x64, .f32⟩ : BufTy).Contents (Elt F)) (x3 : (⟨S64, .f32⟩ : BufTy).Contents (Elt F)) (x4 : (⟨S64x16, .f32⟩ : BufTy).Contents (Elt F)) (x5 : (⟨S16, .f32⟩ : BufTy).Contents (Elt F))
    (h83 : (TRef.of (T := ⟨S100000x16, .f32⟩) main_v83).ofBuf (Vp (Proc.devRef .tc main_v83)) = val_main_v83 (F := F) x0 x1 x2 x3 x4 x5) :
    after (List.drop 4 (List.drop 44 (List.drop 7 (List.drop 44 (List.drop 7 (ops (F := F))))))) Vp (Proc.devRef .tc main_v84) = val_main_v84 (F := F) x0 x1 x2 x3 x4 x5 := by
  simp only [ops, List.take_succ_cons, List.take_zero, List.drop_succ_cons, List.drop_zero]
  after_results_simp
  rw [h83]
  repeat rw [ofBuf_toBuf]
  refine cast_eq_iff_heq.mpr (heq_of_eq ?_)
  rfl

/-- The fold of the reference's operations, read at the result buffer, is the last stage of the arguments' contents. -/
theorem after_ops_result (V : Valuation τ sig (Elt F)) :
    after (ops (F := F)) V (Proc.devRef .tc main_v84)
      = val_main_v84 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [← after_take_drop 7 (ops (F := F)) V, ← after_take_drop 44 (List.drop 7 (ops (F := F))), ← after_take_drop 7 (List.drop 44 (List.drop 7 (ops (F := F)))), ← after_take_drop 44 (List.drop 7 (List.drop 44 (List.drop 7 (ops (F := F))))),
    ← after_take_drop 4 (List.drop 44 (List.drop 7 (List.drop 44 (List.drop 7 (ops (F := F))))))]
  -- the first stretch
  obtain ⟨a0, a2, a3, a4, a5⟩ := stretchA_keeps V
  have av3 := stretchA_v3 V
  have av6 := stretchA_v6 V
  generalize after (List.take 7 (ops (F := F))) V = W1 at a0 a2 a3 a4 a5 av3 av6 ⊢
  -- the second
  have b40 := stretchB W1 _ _ av3 av6 a0
  obtain ⟨bv3, bv6, b2, b3, b4, b5⟩ := stretchB_keeps W1
  generalize after (List.take 44 (List.drop 7 (ops (F := F)))) W1 = W2 at b40 bv3 bv6 b2 b3 b4 b5 ⊢
  -- the third
  have c45 := stretchC W2 _ _ _ _ b40 (b2.trans a2) (b3.trans a3)
  obtain ⟨cv3, cv6, c4, c5⟩ := stretchC_keeps W2
  generalize after (List.take 7 (List.drop 44 (List.drop 7 (ops (F := F))))) W2 = W3 at c45 cv3 cv6 c4 c5 ⊢
  -- the fourth
  have d79 := stretchD W3 _ _ _ _ (cv3.trans (bv3.trans av3)) (cv6.trans (bv6.trans av6)) c45
  obtain ⟨d4, d5⟩ := stretchD_keeps W3
  generalize after (List.take 44 (List.drop 7 (List.drop 44 (List.drop 7 (ops (F := F)))))) W3 = W4 at d79 d4 d5 ⊢
  -- the fifth, in its two parts
  have e83 := stretchE1 W4 _ _ _ _ _ _ d79 (d4.trans (c4.trans (b4.trans a4))) (d5.trans (c5.trans (b5.trans a5)))
  generalize after (List.take 4 (List.drop 44 (List.drop 7 (List.drop 44 (List.drop 7 (ops (F := F))))))) W4 = W5 at e83 ⊢
  exact stretchE2 W5 _ _ _ _ _ _ (cast_eq_iff_heq.mpr (heq_of_eq e83))

set_option maxRecDepth 8192 in
set_option maxHeartbeats 48400000 in
/-- The run: the result at the last stage of the launch contents of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84)
          = val_main_v84 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  exact (θ_run defs _ _).mono (fun _ h c => ⟨(h c main_v84).trans (after_ops_result _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Result

end
-- ==== Proof.lean ====
/-
  A two-layer graph convolution network on 100000 nodes: x ↦ log_softmax(Â · relu(Â · x · W1 + b1) · W2 + b2), where Â
  aggregates every node's in-neighbours (self loops added) with the symmetric degree normalisation.  The kernel program
  computes both aggregations on the host exactly as the reference does, operation for operation, and hands each dense
  layer (product with the weights, bias, then the clip at zero resp. the row-wise log-softmax) to a kernel tiled over
  blocks of ten thousand nodes.  On the extended reals a change of float format is the identity and the matrix unit into
  a zero accumulator is the plain sum over the contracted coordinate, so each tile computes the reference's layer on its
  rows; the layers are row-local, so the ten tiles assemble the reference's layer on all rows; hence the first region
  leaves the reference's stage after its clip, the second stretch of host operations turns it into the reference's second
  aggregate, and the second region leaves the reference's result.  No algebraic law beyond reading both sides at an index
  is used, so the precondition (finite inputs) is never opened.
  The three frames: the two kernel programs' are the generated frame certificates; the reference has no kernel, its frame
  is its run with the result dropped.  The idealization rewrote no operation, so that conjunct is trivial.
-/
import proofs.«152130_j28269474742292_1_alg».proof.Defs
import proofs.«152130_j28269474742292_1_alg».proof.Proof.Gen.Kernel
import proofs.«152130_j28269474742292_1_alg».proof.Proof.Gen.Kernel.Skeleton
import proofs.«152130_j28269474742292_1_alg».proof.Proof.Gen.Kernel.Launch
import proofs.«152130_j28269474742292_1_alg».proof.Proof.Gen.Kernel.Points
import proofs.«152130_j28269474742292_1_alg».proof.Proof.Gen.Kernel.Frame
import proofs.«152130_j28269474742292_1_alg».proof.Proof.Gen.KernelIdeal
import proofs.«152130_j28269474742292_1_alg».proof.Proof.Gen.KernelIdeal.Skeleton
import proofs.«152130_j28269474742292_1_alg».proof.Proof.Gen.KernelIdeal.Launch
import proofs.«152130_j28269474742292_1_alg».proof.Proof.Gen.KernelIdeal.Points
import proofs.«152130_j28269474742292_1_alg».proof.Proof.Gen.KernelIdeal.Frame
import proofs.«152130_j28269474742292_1_alg».proof.Proof.Gen.ReferenceIdeal
import proofs.«152130_j28269474742292_1_alg».proof.Proof.Gen.Pre_finite_inputs
import proofs.«152130_j28269474742292_1_alg».proof.Proof.KernelRun
import proofs.«152130_j28269474742292_1_alg».proof.Proof.KernelResult
import proofs.«152130_j28269474742292_1_alg».proof.Proof.RefResult
import Idealize.ShloMosaic.Adequacy
import Idealize.ShloMosaic.Init

noncomputable section

namespace Cert.Proof

open Idealize.ShloMosaic Idealize.ShloMosaic.TcCoe Idealize.SL.Sem

/-- On the extended reals both programs, run from memories agreeing on the arguments, end with the reference's last
    stage of the kernel program's argument arrays in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v84 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result_eq m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Result.run (F := Ideal) m' ρ')
    obtain ⟨e0, e1, e2, e3, e4, e5⟩ := hagree c
    rw [e0, e1, e2, e3, e4, e5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Result.run (F := Ideal) m ρ),
  trivial,
  algebraic⟩

end Cert.Proof

end
